-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x16 : Shape := ⟨2, ![131072, 16]⟩
abbrev S64x16 : Shape := ⟨2, ![64, 16]⟩
abbrev S64x17 : Shape := ⟨2, ![64, 17]⟩
abbrev S_ : Shape := ⟨0, ![]⟩

class Facts : Prop where
  bcast_S_S131072x16 : S_.BroadcastsInDim S131072x16 (![] : Fin 0 → Fin S131072x16.rank)
  reducesTo_S131072x16_S_d0_1 : S131072x16.ReducesTo [0, 1] S_
  h_S_ : 0 < S_.numel
  bcast_S_S64x16 : S_.BroadcastsInDim S64x16 (![] : Fin 0 → Fin S64x16.rank)
  reducesTo_S64x16_S_d0_1 : S64x16.ReducesTo [0, 1] S_
  bcast_S_S64x17 : S_.BroadcastsInDim S64x17 (![] : Fin 0 → Fin S64x17.rank)
  reducesTo_S64x17_S_d0_1 : S64x17.ReducesTo [0, 1] S_

variable [Facts]

def fn_part1 {F : FTy → Type} [FloatOps F] (main_arg2 : FVec F S64x16 .f32) (main_v13 : IVec S_ 1) (main_v16 : IVec S64x17 1) : IVec S_ 1 :=
  let main_c_5 : IVec S_ 1 := constantI S_ 1 1#1
  let main_v17 : IVec S_ 1 := (fun x v => Host.reduce IntOp.andi x v reducesTo_S64x17_S_d0_1 h_S_) main_v16 main_c_5
  let main_v18 : IVec S_ 1 := andi main_v13 main_v17
  let main_cst_6 : FVec F S_ .f32 := constant S_ .f32 0x00000000#32
  let main_v19 : FVec F S64x16 .f32 := broadcastInDim S64x16 ![] bcast_S_S64x16 main_cst_6
  let main_v20 : IVec S64x16 1 := cmpf .une main_arg2 main_v19
  let main_c_7 : IVec S_ 1 := constantI S_ 1 1#1
  let main_v21 : IVec S_ 1 := (fun x v => Host.reduce IntOp.andi x v reducesTo_S64x16_S_d0_1 h_S_) main_v20 main_c_7
  let main_v22 : IVec S_ 1 := andi main_v18 main_v21
  main_v22

def fn {F : FTy → Type} [FloatOps F] (main_arg0 : FVec F S131072x16 .f32) (main_arg1 : FVec F S64x16 .f32) (main_arg2 : FVec F S64x16 .f32) (main_arg3 : FVec F S64x17 .f32) : IVec S_ 1 :=
  let main_v0 : FVec F S131072x16 .f32 := Host.absf main_arg0
  let main_cst : FVec F S_ .f32 := constant S_ .f32 0x7F800000#32
  let main_v1 : FVec F S131072x16 .f32 := broadcastInDim S131072x16 ![] bcast_S_S131072x16 main_cst
  let main_v2 : IVec S131072x16 1 := cmpf .olt main_v0 main_v1
  let main_c : IVec S_ 1 := constantI S_ 1 1#1
  let main_v3 : IVec S_ 1 := (fun x v => Host.reduce IntOp.andi x v reducesTo_S131072x16_S_d0_1 h_S_) main_v2 main_c
  let main_v4 : FVec F S64x16 .f32 := Host.absf main_arg1
  let main_cst_0 : FVec F S_ .f32 := constant S_ .f32 0x7F800000#32
  let main_v5 : FVec F S64x16 .f32 := broadcastInDim S64x16 ![] bcast_S_S64x16 main_cst_0
  let main_v6 : IVec S64x16 1 := cmpf .olt main_v4 main_v5
  let main_c_1 : IVec S_ 1 := constantI S_ 1 1#1
  let main_v7 : IVec S_ 1 := (fun x v => Host.reduce IntOp.andi x v reducesTo_S64x16_S_d0_1 h_S_) main_v6 main_c_1
  let main_v8 : IVec S_ 1 := andi main_v3 main_v7
  let main_v9 : FVec F S64x16 .f32 := Host.absf main_arg2
  let main_cst_2 : FVec F S_ .f32 := constant S_ .f32 0x7F800000#32
  let main_v10 : FVec F S64x16 .f32 := broadcastInDim S64x16 ![] bcast_S_S64x16 main_cst_2
  let main_v11 : IVec S64x16 1 := cmpf .olt main_v9 main_v10
  let main_c_3 : IVec S_ 1 := constantI S_ 1 1#1
  let main_v12 : IVec S_ 1 := (fun x v => Host.reduce IntOp.andi x v reducesTo_S64x16_S_d0_1 h_S_) main_v11 main_c_3
  let main_v13 : IVec S_ 1 := andi main_v8 main_v12
  let main_v14 : FVec F S64x17 .f32 := Host.absf main_arg3
  let main_cst_4 : FVec F S_ .f32 := constant S_ .f32 0x7F800000#32
  let main_v15 : FVec F S64x17 .f32 := broadcastInDim S64x17 ![] bcast_S_S64x17 main_cst_4
  let main_v16 : IVec S64x17 1 := cmpf .olt main_v14 main_v15
  fn_part1 (F := F) main_arg2 main_v13 main_v16
-- ==== Kernel.lean ====
abbrev S131072x16 : Shape := ⟨2, ![131072, 16]⟩
abbrev S64x16 : Shape := ⟨2, ![64, 16]⟩
abbrev S64x17 : Shape := ⟨2, ![64, 17]⟩
abbrev S_ : Shape := ⟨0, ![]⟩
abbrev S16x64 : Shape := ⟨2, ![16, 64]⟩
abbrev S64 : Shape := ⟨1, ![64]⟩
abbrev S1x64 : Shape := ⟨2, ![1, 64]⟩
abbrev S64x1 : Shape := ⟨2, ![64, 1]⟩
abbrev S131072x1 : Shape := ⟨2, ![131072, 1]⟩
abbrev S8192x16 : Shape := ⟨2, ![8192, 16]⟩
abbrev S8192x1 : Shape := ⟨2, ![8192, 1]⟩
abbrev S8192x64 : Shape := ⟨2, ![8192, 64]⟩
abbrev S8192 : Shape := ⟨1, ![8192]⟩
abbrev S131072 : Shape := ⟨1, ![131072]⟩

abbrev nBuf : Space → Nat
  | .hbm => 26
  | .vmem => 9
  | .smem => 0
  | _ => 0

abbrev bufTy : (tb : Table) → Fin (tcTables nBuf tb) → BufTy
  | .hbm, ⟨0, _⟩ => ⟨S131072x16, .f32⟩
  | .hbm, ⟨1, _⟩ => ⟨S64x16, .f32⟩
  | .hbm, ⟨2, _⟩ => ⟨S64x16, .f32⟩
  | .hbm, ⟨3, _⟩ => ⟨S64x17, .f32⟩
  | .hbm, ⟨4, _⟩ => ⟨S_, .f32⟩
  | .hbm, ⟨5, _⟩ => ⟨S64x16, .f32⟩
  | .hbm, ⟨6, _⟩ => ⟨S64x16, .f32⟩
  | .hbm, ⟨7, _⟩ => ⟨S64x16, .f32⟩
  | .hbm, ⟨8, _⟩ => ⟨S_, .f32⟩
  | .hbm, ⟨9, _⟩ => ⟨S64x16, .f32⟩
  | .hbm, ⟨10, _⟩ => ⟨S64x16, .f32⟩
  | .hbm, ⟨11, _⟩ => ⟨S16x64, .f32⟩
  | .hbm, ⟨12, _⟩ => ⟨S64x16, .f32⟩
  | .hbm, ⟨13, _⟩ => ⟨S16x64, .f32⟩
  | .hbm, ⟨14, _⟩ => ⟨S64x16, .f32⟩
  | .hbm, ⟨15, _⟩ => ⟨S64x16, .f32⟩
  | .hbm, ⟨16, _⟩ => ⟨S_, .f32⟩
  | .hbm, ⟨17, _⟩ => ⟨S64, .f32⟩
  | .hbm, ⟨18, _⟩ => ⟨S1x64, .f32⟩
  | .hbm, ⟨19, _⟩ => ⟨S64x16, .f32⟩
  | .hbm, ⟨20, _⟩ => ⟨S16x64, .f32⟩
  | .hbm, ⟨21, _⟩ => ⟨S64x1, .f32⟩
  | .hbm, ⟨22, _⟩ => ⟨S64, .f32⟩
  | .hbm, ⟨23, _⟩ => ⟨S1x64, .f32⟩
  | .hbm, ⟨24, _⟩ => ⟨S131072x1, .f32⟩
  | .hbm, ⟨25, _⟩ => ⟨S131072, .f32⟩
  | .local _ .vmem, ⟨0, _⟩ => ⟨S8192x16, .f32⟩
  | .local _ .vmem, ⟨1, _⟩ => ⟨S8192x16, .f32⟩
  | .local _ .vmem, ⟨2, _⟩ => ⟨S16x64, .f32⟩
  | .local _ .vmem, ⟨3, _⟩ => ⟨S16x64, .f32⟩
  | .local _ .vmem, ⟨4, _⟩ => ⟨S1x64, .f32⟩
  | .local _ .vmem, ⟨5, _⟩ => ⟨S16x64, .f32⟩
  | .local _ .vmem, ⟨6, _⟩ => ⟨S1x64, .f32⟩
  | .local _ .vmem, ⟨7, _⟩ => ⟨S8192x1, .f32⟩
  | .local _ .vmem, ⟨8, _⟩ => ⟨S8192x1, .f32⟩
  | _, _ => ⟨S131072x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8192x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S64x16 : S_.BroadcastsInDim S64x16 (![] : Fin 0 → Fin S64x16.rank)
  transposes_S64x16_S16x64_1_0 : S64x16.Transposes [1, 0] S16x64
  reducesTo_S64x16_S64_d1 : S64x16.ReducesTo [1] S64
  h_S_ : 0 < S_.numel
  shapeCasts_S64_S1x64 : S64.ShapeCasts S1x64
  slices_S64x17_S64x16_0_0 : S64x17.Slices ![0, 0] S64x16
  slices_S64x17_S64x1_0_16 : S64x17.Slices ![0, 16] S64x1
  shapeCasts_S64x1_S64 : S64x1.ShapeCasts S64
  inb_S8192x16_S8192x16_0_0 : ∀ a, (![0, 0] : Fin 2 → Nat) a + S8192x16.size a ≤ S8192x16.size a
  h_S8192x16 : 0 < S8192x16.numel
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  reduces_S8192x64_S8192 : S8192x64.Reduces [1] S8192
  shapeCasts_S8192_S8192x1 : S8192.ShapeCasts S8192x1
  inb_S8192x1_S8192x1_0_0 : ∀ a, (![0, 0] : Fin 2 → Nat) a + S8192x1.size a ≤ S8192x1.size a
  h_S8192x1 : 0 < S8192x1.numel
  shapeCasts_S131072x1_S131072 : S131072x1.ShapeCasts S131072
  dot_S8192x16_S16x64_S8192x64_1_0_0_1_n_n_wf : DotDims.WF S8192x16 S16x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x16.size a ≤ S131072x16.size a
  hwx0_0 : ∀ i : grid0.Coords, EltTy.bits .f32 = 32 ∨ (Rect.block (s := S131072x16) S8192x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x64.size a ≤ S16x64.size a
  hwx0_2 : ∀ i : grid0.Coords, EltTy.bits .f32 = 32 ∨ (Rect.block (s := S16x64) S16x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x64.size a ≤ S16x64.size a
  hwx0_4 : ∀ i : grid0.Coords, EltTy.bits .f32 = 32 ∨ (Rect.block (s := S16x64) S16x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8192x1.size a ≤ S131072x1.size a
  hwx0_6 : ∀ i : grid0.Coords, EltTy.bits .f32 = 32 ∨ (Rect.block (s := S131072x1) S8192x1.size (cc0_transform_6 i) (hinb0_6 i)).WholeWords (EltTy.packing .f32)

variable [Facts₀]

def dot_S8192x16_S16x64_S8192x64_1_0_0_1_n_n : DotDims S8192x16 S16x64 S8192x64 where
  lhsContracting := [1]
  rhsContracting := [0]
  lhsNonContracting := [0]
  rhsNonContracting := [1]
  lhsBatch := []
  rhsBatch := []
  wf := dot_S8192x16_S16x64_S8192x64_1_0_0_1_n_n_wf

abbrev win0_0 : Pipeline.Window sig grid0 :=
  Pipeline.Window.ofSpec (Memref.whole main_arg0) S8192x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S16x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S16x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S8192x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S131072x16 : Shape := ⟨2, ![131072, 16]⟩
abbrev S64x16 : Shape := ⟨2, ![64, 16]⟩
abbrev S64x17 : Shape := ⟨2, ![64, 17]⟩
abbrev S131072x64 : Shape := ⟨2, ![131072, 64]⟩
abbrev S64x1 : Shape := ⟨2, ![64, 1]⟩
abbrev S64 : Shape := ⟨1, ![64]⟩
abbrev S1x64 : Shape := ⟨2, ![1, 64]⟩
abbrev S131072x1x16 : Shape := ⟨3, ![131072, 1, 16]⟩
abbrev S1x64x16 : Shape := ⟨3, ![1, 64, 16]⟩
abbrev S131072x64x16 : Shape := ⟨3, ![131072, 64, 16]⟩
abbrev S_ : Shape := ⟨0, ![]⟩
abbrev S131072 : Shape := ⟨1, ![131072]⟩

abbrev nBuf : Space → Nat
  | .hbm => 37
  | .vmem => 0
  | .smem => 0
  | _ => 0

abbrev bufTy : (tb : Table) → Fin (tcTables nBuf tb) → BufTy
  | .hbm, ⟨0, _⟩ => ⟨S131072x16, .f32⟩
  | .hbm, ⟨1, _⟩ => ⟨S64x16, .f32⟩
  | .hbm, ⟨2, _⟩ => ⟨S64x16, .f32⟩
  | .hbm, ⟨3, _⟩ => ⟨S64x17, .f32⟩
  | .hbm, ⟨4, _⟩ => ⟨S64x16, .f32⟩
  | .hbm, ⟨5, _⟩ => ⟨S131072x64, .f32⟩
  | .hbm, ⟨6, _⟩ => ⟨S64x1, .f32⟩
  | .hbm, ⟨7, _⟩ => ⟨S64, .f32⟩
  | .hbm, ⟨8, _⟩ => ⟨S1x64, .f32⟩
  | .hbm, ⟨9, _⟩ => ⟨S131072x64, .f32⟩
  | .hbm, ⟨10, _⟩ => ⟨S131072x64, .f32⟩
  | .hbm, ⟨11, _⟩ => ⟨S131072x1x16, .f32⟩
  | .hbm, ⟨12, _⟩ => ⟨S1x64x16, .f32⟩
  | .hbm, ⟨13, _⟩ => ⟨S131072x64x16, .f32⟩
  | .hbm, ⟨14, _⟩ => ⟨S131072x64x16, .f32⟩
  | .hbm, ⟨15, _⟩ => ⟨S131072x64x16, .f32⟩
  | .hbm, ⟨16, _⟩ => ⟨S131072x64x16, .f32⟩
  | .hbm, ⟨17, _⟩ => ⟨S1x64x16, .f32⟩
  | .hbm, ⟨18, _⟩ => ⟨S1x64x16, .f32⟩
  | .hbm, ⟨19, _⟩ => ⟨S_, .f32⟩
  | .hbm, ⟨20, _⟩ => ⟨S1x64x16, .f32⟩
  | .hbm, ⟨21, _⟩ => ⟨S1x64x16, .f32⟩
  | .hbm, ⟨22, _⟩ => ⟨S131072x64x16, .f32⟩
  | .hbm, ⟨23, _⟩ => ⟨S131072x64x16, .f32⟩
  | .hbm, ⟨24, _⟩ => ⟨S_, .f32⟩
  | .hbm, ⟨25, _⟩ => ⟨S131072x64, .f32⟩
  | .hbm, ⟨26, _⟩ => ⟨S131072x64, .f32⟩
  | .hbm, ⟨27, _⟩ => ⟨S131072x64, .f32⟩
  | .hbm, ⟨28, _⟩ => ⟨S131072x64, .f32⟩
  | .hbm, ⟨29, _⟩ => ⟨S_, .f32⟩
  | .hbm, ⟨30, _⟩ => ⟨S131072, .f32⟩
  | .hbm, ⟨31, _⟩ => ⟨S_, .f32⟩
  | .hbm, ⟨32, _⟩ => ⟨S131072, .f32⟩
  | .hbm, ⟨33, _⟩ => ⟨S_, .f32⟩
  | .hbm, ⟨34, _⟩ => ⟨S131072, .f32⟩
  | .hbm, ⟨35, _⟩ => ⟨S131072, .f32⟩
  | .hbm, ⟨36, _⟩ => ⟨S131072, .f32⟩
  | _, _ => ⟨S131072x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  slices_S64x17_S64x16_0_0 : S64x17.Slices ![0, 0] S64x16
  slices_S64x17_S64x1_0_16 : S64x17.Slices ![0, 16] S64x1
  shapeCasts_S64x1_S64 : S64x1.ShapeCasts S64
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S131072x16_S131072x1x16_0_2 : S131072x16.BroadcastsInDim S131072x1x16 (![0, 2] : Fin 2 → Fin S131072x1x16.rank)
  bcast_S64x16_S1x64x16_1_2 : S64x16.BroadcastsInDim S1x64x16 (![1, 2] : Fin 2 → Fin S1x64x16.rank)
  bcast_S131072x1x16_S131072x64x16_0_1_2 : S131072x1x16.BroadcastsInDim S131072x64x16 (![0, 1, 2] : Fin 3 → Fin S131072x64x16.rank)
  bcast_S1x64x16_S131072x64x16_0_1_2 : S1x64x16.BroadcastsInDim S131072x64x16 (![0, 1, 2] : Fin 3 → Fin S131072x64x16.rank)
  bcast_S_S1x64x16 : S_.BroadcastsInDim S1x64x16 (![] : Fin 0 → Fin S1x64x16.rank)
  reducesTo_S131072x64x16_S131072x64_d2 : S131072x64x16.ReducesTo [2] S131072x64
  h_S_ : 0 < S_.numel
  reducesTo_S131072x64_S131072_d1 : S131072x64.ReducesTo [1] S131072
  bcast_S_S131072 : S_.BroadcastsInDim S131072 (![] : Fin 0 → Fin S131072.rank)
  dot_S131072x16_S64x16_S131072x64_1_1_0_0_n_n_wf : DotDims.WF S131072x16 S64x16 S131072x64 [1] [1] [0] [0] [] []

variable [Facts₀]

def dot_S131072x16_S64x16_S131072x64_1_1_0_0_n_n : DotDims S131072x16 S64x16 S131072x64 where
  lhsContracting := [1]
  rhsContracting := [1]
  lhsNonContracting := [0]
  rhsNonContracting := [0]
  lhsBatch := []
  rhsBatch := []
  wf := dot_S131072x16_S64x16_S131072x64_1_1_0_0_n_n_wf

class Facts : Prop extends Facts₀ where

variable [Facts]
-- ==== Proof.InputDomain.lean ====
/-
  WHAT THE PRECONDITION SAYS OF THE ARRAYS.  The printed predicate is the conjunction of five `all`s: of
  `|v| < +∞` over each of the four argument arrays, and of `σ ≠ 0` over the widths.  Read back entry by entry:
  every entry of every argument array is a real number (an extended real whose absolute value is below `+∞` is
  neither infinity), and no width is zero.
-/
import proofs.«177115_j32693291057854_1_alg».proof.Pre_finite_inputs
import Idealize.ShloMosaic.Lib.ReduceAll
import Idealize.ShloMosaic.Lib.ValueIdx
import Idealize.ShloMosaic.PureOps.Ideal.Laws

noncomputable section

namespace Cert.Fuzzy.Domain

open Idealize.ShloMosaic Cert.Pre_finite_inputs

/-- The rank-0 shape has one index. -/
instance : Subsingleton S_.Idx := ⟨fun a b => funext fun d => d.elim0⟩

/-- An extended real whose absolute value is below `+∞` is a real number. -/
theorem real_of_abs_lt_inf (v : EReal)
    (h : FloatOps.cmpf (F := Ideal) .olt (FloatOps.hostAbsf v) (Ideal.ofBits .f32 0x7F800000#32) = 1#1) :
    ∃ r : ℝ, v = r := by
  have hinf : Ideal.ofBits .f32 0x7F800000#32 = ⊤ := by simp [Ideal.ofBits, Ideal.ieee]
  rw [hinf] at h
  induction v using EReal.rec with
  | bot => exact absurd h (by simp [Ideal.cmpf_def, Ideal.cmp, Ideal.absf_def])
  | top => exact absurd h (by simp [Ideal.cmpf_def, Ideal.cmp, Ideal.absf_def])
  | coe r => exact ⟨r, rfl⟩

/-- An extended real that compares unequal to the zero word is not zero. -/
theorem ne_zero_of_une (v : EReal)
    (h : FloatOps.cmpf (F := Ideal) .une v (Ideal.ofBits .f32 0x00000000#32) = 1#1) : v ≠ 0 := by
  rw [Ideal.ofBits_zero_f32] at h
  intro hv
  rw [hv] at h
  revert h
  simp [Ideal.cmpf_def, Ideal.cmp]

/-- THE DOMAIN: under the precondition every entry of `x`, `μ`, `σ`, `ρ` is a real number and no `σ` is zero. -/
theorem of_pre [Facts] (a0 : FVec Ideal S131072x16 .f32) (a1 a2 : FVec Ideal S64x16 .f32) (a3 : FVec Ideal S64x17 .f32)
    (h : fn (F := Ideal) a0 a1 a2 a3 = fun _ => 1#1) :
    (∀ i, ∃ r : ℝ, a0 i = r) ∧ (∀ i, ∃ r : ℝ, a1 i = r) ∧ (∀ i, ∃ r : ℝ, a2 i = r) ∧ (∀ i, ∃ r : ℝ, a3 i = r)
      ∧ ∀ i, a2 i ≠ 0 := by
  have h0 := congrFun h ValueIdx.ix0
  dsimp only [fn, fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨hx, hm⟩ := IntOp.andi_eq_one.1 h01
  exact ⟨fun i => real_of_abs_lt_inf _ (Host.reduce_andi_all _ _ _ _ _ hx i),
    fun i => real_of_abs_lt_inf _ (Host.reduce_andi_all _ _ _ _ _ hm i),
    fun i => real_of_abs_lt_inf _ (Host.reduce_andi_all _ _ _ _ _ h2 i),
    fun i => real_of_abs_lt_inf _ (Host.reduce_andi_all _ _ _ _ _ h3 i),
    fun i => ne_zero_of_une _ (Host.reduce_andi_all _ _ _ _ _ h4 i)⟩

end Cert.Fuzzy.Domain

end
-- ==== Proof.GaussAlgebra.lean ====
/-
  The algebra that joins the two programs, over one row `x` of the data and one rule's centre `μ` and width `σ`
  (sixteen features each).  The reference sums the scaled squared distances `(x a − μ a)² / (2 σ a²)`; the kernel
  expands the square and sums `x a² · s a`, `x a · (μ a · s a)` and `μ a² · s a` separately, with
  `s a = 1 / (2 σ a σ a)`, and combines them as `(0 − Σ x² s) + 2 Σ x μ s − Σ μ² s`.  On the extended reals the
  expansion needs every entry to be a real number (distributivity fails at the infinities) and every width to be
  non-zero (the quotient by zero is an infinity); under both, each side is the coercion of one real sum and the
  two real sums agree term by term.
-/
import Idealize.ShloMosaic.PureOps.Ideal
import Idealize.ShloMosaic.PureOps.Ideal.Laws

noncomputable section

namespace Cert.Fuzzy

open Idealize.ShloMosaic

/-- The word of `2.0` denotes the real two. -/
theorem two_eq : Ideal.ofBits .f32 0x40000000#32 = ((2 : ℝ) : EReal) := by
  simp [Ideal.ofBits, Ideal.ieee, -EReal.coe_mul]
  norm_num

/-- The word of `1.0` denotes the real one. -/
theorem one_eq : Ideal.ofBits .f32 0x3F800000#32 = ((1 : ℝ) : EReal) := by
  simp [Ideal.ofBits, Ideal.ieee, -EReal.coe_mul]
  norm_num

/-- A finite sum of reals, coerced, is the sum of the coercions. -/
theorem coe_sum {ι : Type} (s : Finset ι) (f : ι → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- The expanded square, over the reals: term by term
    `−x² s + 2 x μ s − μ² s = −(x − μ)² s` with `s = 1 / (2 σ σ) = 1 / (2 (σ σ))`. -/
theorem expand_real (x m s : Fin 16 → ℝ) (hs : ∀ a, s a ≠ 0) :
    ((0 - ∑ a, (x a * x a) * (1 / (2 * s a * s a))) + 2 * ∑ a, x a * (m a * (1 / (2 * s a * s a))))
        - ∑ a, (m a * m a) * (1 / (2 * s a * s a))
      = -(∑ a, ((x a - m a) * (x a - m a)) * (1 / (2 * (s a * s a)))) := by
  rw [zero_sub, Finset.mul_sum, ← Finset.sum_neg_distrib, ← Finset.sum_add_distrib, ← Finset.sum_sub_distrib,
    ← Finset.sum_neg_distrib]
  refine Finset.sum_congr rfl fun a _ => ?_
  have := hs a
  field_simp
  ring

/-- A quotient of reals by a non-zero real is a real number. -/
theorem div_coe_coe (u : ℝ) {v : ℝ} (hv : v ≠ 0) : Ideal.div (u : EReal) (v : EReal) = ((u * (1 / v) : ℝ) : EReal) := by
  rw [Ideal.div_coe hv, ← EReal.coe_mul]

/-- THE EXPANSION on the extended reals: for a real row, real centres and non-zero real widths, the kernel's
    three-sum form of a rule's log firing strength is the reference's negated sum of scaled squared distances. -/
theorem logw_expand (x m s : Fin 16 → ℝ) (hs : ∀ a, s a ≠ 0) :
    (((0 : EReal) - ∑ a, ((x a : EReal) * (x a : EReal))
            * Ideal.div ((1 : ℝ) : EReal) (((2 : ℝ) : EReal) * (s a : EReal) * (s a : EReal)))
        + ((2 : ℝ) : EReal) * ∑ a, (x a : EReal)
            * ((m a : EReal) * Ideal.div ((1 : ℝ) : EReal) (((2 : ℝ) : EReal) * (s a : EReal) * (s a : EReal))))
      - ∑ a, ((m a : EReal) * (m a : EReal))
            * Ideal.div ((1 : ℝ) : EReal) (((2 : ℝ) : EReal) * (s a : EReal) * (s a : EReal))
    = -(∑ a, Ideal.div (((x a : EReal) - (m a : EReal)) * ((x a : EReal) - (m a : EReal)))
            (((2 : ℝ) : EReal) * ((s a : EReal) * (s a : EReal)))) := by
  have h1 : ∀ (u : ℝ) (a : Fin 16), Ideal.div (u : EReal) ((2 * s a * s a : ℝ) : EReal)
      = ((u * (1 / (2 * s a * s a)) : ℝ) : EReal) :=
    fun u a => div_coe_coe u (mul_ne_zero (mul_ne_zero two_ne_zero (hs a)) (hs a))
  have h2 : ∀ (u : ℝ) (a : Fin 16), Ideal.div (u : EReal) ((2 * (s a * s a) : ℝ) : EReal)
      = ((u * (1 / (2 * (s a * s a))) : ℝ) : EReal) :=
    fun u a => div_coe_coe u (mul_ne_zero two_ne_zero (mul_ne_zero (hs a) (hs a)))
  simp only [← EReal.coe_mul, ← EReal.coe_sub]
  simp only [h1, h2, one_mul]
  simp only [← EReal.coe_mul, ← coe_sum, ← EReal.coe_zero, ← EReal.coe_sub, ← EReal.coe_add, ← EReal.coe_neg]
  exact congrArg _ (expand_real x m s hs)

end Cert.Fuzzy

end
-- ==== Proof.FuzzySpec.lean ====
/-
  THE SPECIFICATION: the fuzzy-rule network's output, row by row, as one function of the four argument arrays.
  For a data row `n` (131072 rows of 16 features) and a rule `r` (64 rules):
    * the rule's consequent      `z n r = Σ_a x[n,a] · ρ[r,a] + ρ[r,16]`  (a linear form and its bias, the 17th column of `ρ`);
    * its log firing strength    `ℓ n r`, in one of two spellings:
        the reference's          `−Σ_a (x[n,a] − μ[r,a])² / (2 · (σ[r,a] · σ[r,a]))`,
        the kernel's             `(0 − Σ_a x² s) + 2 · Σ_a x · (μ s) − Σ_a μ² s`  with  `s[r,a] = 1 / ((2 · σ[r,a]) · σ[r,a])`;
    * the output                 `(Σ_r z n r · exp (ℓ n r)) / (Σ_r exp (ℓ n r) + ε)`.
  The two spellings of `ℓ` agree when every entry of `x`, `μ`, `σ` is a real number and no `σ` is zero
  (GaussAlgebra's expansion); the output is then the same extended real whichever spelling is used, the quotient and
  the literal `ε` being the same on both sides.
-/
import Idealize.ShloMosaic.Lib.ValueIdx
import proofs.«177115_j32693291057854_1_alg».proof.Proof.GaussAlgebra

noncomputable section

namespace Cert.Fuzzy

open Idealize.ShloMosaic Idealize.ShloMosaic.ValueIdx

/-- The data: 131072 rows of 16 features. -/
abbrev SX : Shape := ⟨2, ![131072, 16]⟩
/-- Centres and widths: 64 rules by 16 features. -/
abbrev SM : Shape := ⟨2, ![64, 16]⟩
/-- Consequent coefficients: 64 rules by 16 features and a bias. -/
abbrev SR : Shape := ⟨2, ![64, 17]⟩

/-- The words of `2.0`, `1.0` and of the denominator's `ε`, as the programs print them. -/
abbrev TWO : EReal := Ideal.ofBits .f32 0x40000000#32
abbrev ONE : EReal := Ideal.ofBits .f32 0x3F800000#32
abbrev EPS : EReal := Ideal.ofBits .f32 0x29E12E13#32

variable (x : SX.Idx → EReal) (mu sg : SM.Idx → EReal) (rho : SR.Idx → EReal)

/-- A rule's consequent on a row: the linear form in the row's features plus the rule's bias. -/
def cons (n : Fin 131072) (r : Fin 64) : EReal :=
  (∑ a : Fin 16, x (ix2 n a) * rho (ix2 r a.castSucc)) + rho (ix2 r (Fin.last 16))

/-- A rule's log firing strength on a row, as the reference spells it. -/
def logwRef (n : Fin 131072) (r : Fin 64) : EReal :=
  -(∑ a : Fin 16, Ideal.div ((x (ix2 n a) - mu (ix2 r a)) * (x (ix2 n a) - mu (ix2 r a)))
      (TWO * (sg (ix2 r a) * sg (ix2 r a))))

/-- The kernel's scale of a feature of a rule. -/
def scale (r : Fin 64) (a : Fin 16) : EReal := Ideal.div ONE (TWO * sg (ix2 r a) * sg (ix2 r a))

/-- A rule's log firing strength on a row, as the kernel spells it: the square expanded into three sums. -/
def logwKer (n : Fin 131072) (r : Fin 64) : EReal :=
  ((0 - ∑ a : Fin 16, (x (ix2 n a) * x (ix2 n a)) * scale sg r a)
      + TWO * ∑ a : Fin 16, x (ix2 n a) * (mu (ix2 r a) * scale sg r a))
    - ∑ a : Fin 16, (mu (ix2 r a) * mu (ix2 r a)) * scale sg r a

/-- The network's output on a row, over a given log firing strength. -/
def out (lw : Fin 131072 → Fin 64 → EReal) (n : Fin 131072) : EReal :=
  Ideal.div (∑ r : Fin 64, cons x rho n r * Ideal.exp (lw n r)) ((∑ r : Fin 64, Ideal.exp (lw n r)) + EPS)

variable {x mu sg}

/-- The two spellings agree on real data with non-zero widths. -/
theorem logwKer_eq_logwRef (hx : ∀ i, ∃ v : ℝ, x i = v) (hm : ∀ i, ∃ v : ℝ, mu i = v) (hs : ∀ i, ∃ v : ℝ, sg i = v)
    (hs0 : ∀ i, sg i ≠ 0) (n : Fin 131072) (r : Fin 64) : logwKer x mu sg n r = logwRef x mu sg n r := by
  choose xr hxr using hx
  choose mr hmr using hm
  choose sr hsr using hs
  have hsr0 : ∀ a : Fin 16, sr (ix2 r a) ≠ 0 := fun a h => hs0 (ix2 r a) (by rw [hsr, h, EReal.coe_zero])
  unfold logwKer logwRef scale
  simp only [TWO, ONE, two_eq, one_eq, hxr, hmr, hsr]
  exact logw_expand (fun a => xr (ix2 n a)) (fun a => mr (ix2 r a)) (fun a => sr (ix2 r a)) hsr0

/-- So the output is the same function of the arrays in either spelling. -/
theorem out_ker_eq_ref (hx : ∀ i, ∃ v : ℝ, x i = v) (hm : ∀ i, ∃ v : ℝ, mu i = v) (hs : ∀ i, ∃ v : ℝ, sg i = v)
    (hs0 : ∀ i, sg i ≠ 0) (n : Fin 131072) :
    out x rho (logwKer x mu sg) n = out x rho (logwRef x mu sg) n := by
  have : logwKer x mu sg = logwRef x mu sg := funext fun n => funext fun r => logwKer_eq_logwRef hx hm hs hs0 n r
  rw [this]

end Cert.Fuzzy

end
-- ==== Proof.RefValue.lean ====
/-
  THE REFERENCE'S VALUE.  Read one operation at a time, the reference's result at row `n` is
  `(Σ_r z n r · exp (ℓ n r)) / (Σ_r exp (ℓ n r) + ε)` with `z` the consequent (the contraction of the row with the
  first sixteen columns of `ρ`, plus the seventeenth) and `ℓ` the negated sum over the features of the scaled squared
  distances: the broadcasts only re-address the operands (row `n` of `x`, row `r` of `μ`, `σ`, `ρ`), and each host
  sum starts from the zero word.
-/
import proofs.«177115_j32693291057854_1_alg».proof.Proof.Gen.ReferenceIdeal.Read
import proofs.«177115_j32693291057854_1_alg».proof.Proof.FuzzySpec

noncomputable section

namespace Cert.ReferenceIdeal.RefValue

open Cert.ReferenceIdeal Cert.ReferenceIdeal.Read Idealize.ShloMosaic Idealize.ShloMosaic.ValueIdx Cert.Fuzzy

/-- The reference's result at row `n` is the specification's output over the reference's spelling of the log
    firing strength. -/
theorem result_at (x0 : FVec Ideal S131072x16 .f32) (x1 x2 : FVec Ideal S64x16 .f32) (x3 : FVec Ideal S64x17 .f32)
    (n : Fin 131072) :
    val_main_v27 (F := Ideal) x0 x1 x2 x3 (ix1 n) = out x0 x3 (logwRef x0 x1 x2) n := by
  -- where each operand is read: row `n` of the data, row `k` (the rule) of the three small arrays
  have eL : ∀ (k : Fin 64) (a : Fin 16), lidx_main_v1 (idx_main_v23 (ix1 n) k) a = ix2 n a := fun k a =>
    funext fun d => Fin.ext (by match d with | ⟨0, _⟩ => rfl | ⟨1, _⟩ => rfl)
  have eR : ∀ (k : Fin 64) (a : Fin 16), idx_main_v0 (ridx_main_v1 (idx_main_v23 (ix1 n) k) a) = ix2 k a.castSucc :=
    fun k a => funext fun d => Fin.ext (by match d with | ⟨0, _⟩ => rfl | ⟨1, _⟩ => rfl)
  have eB : ∀ k : Fin 64, idx_main_v2 (idx_main_v3 (idx_main_v4 (idx_main_v5 (idx_main_v23 (ix1 n) k))))
      = ix2 k (Fin.last 16) := fun k =>
    funext fun d => Fin.ext (by match d with | ⟨0, _⟩ => exact Nat.div_one _ | ⟨1, _⟩ => rfl)
  have eX : ∀ (k : Fin 64) (a : Fin 16), idx_main_v7 (idx_main_v9 (idx_main_v19 (idx_main_v23 (ix1 n) k) a)) = ix2 n a :=
    fun k a => funext fun d => Fin.ext (by match d with | ⟨0, _⟩ => rfl | ⟨1, _⟩ => rfl)
  have eM : ∀ (k : Fin 64) (a : Fin 16), idx_main_v8 (idx_main_v10 (idx_main_v19 (idx_main_v23 (ix1 n) k) a)) = ix2 k a :=
    fun k a => funext fun d => Fin.ext (by match d with | ⟨0, _⟩ => rfl | ⟨1, _⟩ => rfl)
  have eS : ∀ (k : Fin 64) (a : Fin 16), idx_main_v13 (idx_main_v17 (idx_main_v19 (idx_main_v23 (ix1 n) k) a)) = ix2 k a :=
    fun k a => funext fun d => Fin.ext (by match d with | ⟨0, _⟩ => rfl | ⟨1, _⟩ => rfl)
  have eX' : ∀ (k : Fin 64) (a : Fin 16), idx_main_v7 (idx_main_v9 (idx_main_v19 (idx_main_v24 (ix1 n) k) a)) = ix2 n a :=
    fun k a => funext fun d => Fin.ext (by match d with | ⟨0, _⟩ => rfl | ⟨1, _⟩ => rfl)
  have eM' : ∀ (k : Fin 64) (a : Fin 16), idx_main_v8 (idx_main_v10 (idx_main_v19 (idx_main_v24 (ix1 n) k) a)) = ix2 k a :=
    fun k a => funext fun d => Fin.ext (by match d with | ⟨0, _⟩ => rfl | ⟨1, _⟩ => rfl)
  have eS' : ∀ (k : Fin 64) (a : Fin 16), idx_main_v13 (idx_main_v17 (idx_main_v19 (idx_main_v24 (ix1 n) k) a)) = ix2 k a :=
    fun k a => funext fun d => Fin.ext (by match d with | ⟨0, _⟩ => rfl | ⟨1, _⟩ => rfl)
  simp only [val_main_v27_apply, val_main_v23_apply, val_main_v26_apply, val_main_v24_apply, val_main_v25_apply,
    val_main_v22_apply, val_main_v21_apply, val_main_v20_apply, val_main_v19_apply, val_main_v18_apply,
    val_main_v17_apply, val_main_v16_apply, val_main_v15_apply, val_main_v14_apply, val_main_v13_apply,
    val_main_v12_apply, val_main_v11_apply, val_main_v10_apply, val_main_v9_apply, val_main_v8_apply, val_main_v7_apply,
    val_main_v6_apply, val_main_v5_apply, val_main_v4_apply, val_main_v3_apply, val_main_v2_apply, val_main_v1_apply,
    val_main_v0_apply, val_main_cst_apply, val_main_cst_0_apply, val_main_cst_1_apply, val_main_cst_2_apply,
    val_main_cst_3_apply]
  simp only [eL, eR, eB, eX, eM, eS, eX', eM', eS', Ideal.hostDivf_def, Ideal.mulf_def, Ideal.addf_def, Ideal.subf_def,
    Ideal.hostUnary_exp_def, Ideal.hostNegf_def, Ideal.negf_def, Ideal.ofBits_def, Ideal.ofBits_zero_f32, zero_add]
  rfl

end Cert.ReferenceIdeal.RefValue

end
-- ==== Proof.BodyValue.lean ====
/-
  THE KERNEL BODY'S VALUE, row by row.  On a block of 8192 rows `xb` and the five small operands — the scales
  transposed `sT[a,r]`, the scaled centres transposed `mT[a,r]`, the row `m2[0,r]` of summed scaled squared centres,
  the consequent coefficients transposed `rT[a,r]` and the bias row `b[0,r]` — the body stores, at row `p`,
      (Σ_r (Σ_a xb[p,a] · rT[a,r] + b[0,r]) · exp ℓ[p,r]) / (Σ_r exp ℓ[p,r] + ε),
      ℓ[p,r] = (0 − Σ_a xb[p,a]² · sT[a,r]) + 2 · Σ_a xb[p,a] · mT[a,r] − m2[0,r]:
  three matrix products into a zero accumulator (each a sum over the sixteen features), two lane sums over the 64
  rules kept as a column, and pointwise arithmetic.
-/
import proofs.«177115_j32693291057854_1_alg».proof.Proof.Gen.KernelIdeal.Skeleton
import proofs.«177115_j32693291057854_1_alg».proof.Proof.FuzzySpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.Fuzzy

/-! ## The matrix product's index maps, axis by axis -/

theorem lhs_axis0 (i : S8192x64.Idx) (q : dot_S8192x16_S16x64_S8192x64_1_0_0_1_n_n.contr.Idx) :
    (dot_S8192x16_S16x64_S8192x64_1_0_0_1_n_n.lhsIdx i q 0).val = (i 0).val := by
  unfold DotDims.lhsIdx
  rw [dif_neg (show ¬(0 : Fin S8192x16.rank) ∈ dot_S8192x16_S16x64_S8192x64_1_0_0_1_n_n.lhsBatch by decide),
    dif_pos (show (0 : Fin S8192x16.rank) ∈ dot_S8192x16_S16x64_S8192x64_1_0_0_1_n_n.lhsNonContracting by decide)]
  rfl
theorem lhs_axis1 (i : S8192x64.Idx) (q : dot_S8192x16_S16x64_S8192x64_1_0_0_1_n_n.contr.Idx) :
    (dot_S8192x16_S16x64_S8192x64_1_0_0_1_n_n.lhsIdx i q 1).val = (q ⟨0, by decide⟩).val :=
  dot_S8192x16_S16x64_S8192x64_1_0_0_1_n_n.lhsIdx_val_of_single rfl i q
theorem rhs_axis0 (i : S8192x64.Idx) (q : dot_S8192x16_S16x64_S8192x64_1_0_0_1_n_n.contr.Idx) :
    (dot_S8192x16_S16x64_S8192x64_1_0_0_1_n_n.rhsIdx i q 0).val = (q ⟨0, by decide⟩).val :=
  dot_S8192x16_S16x64_S8192x64_1_0_0_1_n_n.rhsIdx_val_of_single rfl i q
theorem rhs_axis1 (i : S8192x64.Idx) (q : dot_S8192x16_S16x64_S8192x64_1_0_0_1_n_n.contr.Idx) :
    (dot_S8192x16_S16x64_S8192x64_1_0_0_1_n_n.rhsIdx i q 1).val = (i 1).val := by
  unfold DotDims.rhsIdx
  rw [dif_neg (show ¬(1 : Fin S16x64.rank) ∈ dot_S8192x16_S16x64_S8192x64_1_0_0_1_n_n.rhsBatch by decide),
    dif_pos (show (1 : Fin S16x64.rank) ∈ dot_S8192x16_S16x64_S8192x64_1_0_0_1_n_n.rhsNonContracting by decide)]
  rfl

/-- A product of a block of rows with a 16 × 64 matrix, into a zero accumulator, at `(p, c)`: the sum over the
    sixteen features. -/
theorem matmul_at (l : FVec Ideal S8192x16 .f32) (r : FVec Ideal S16x64 .f32) (p : Fin 8192) (c : Fin 64) :
    matmul dot_S8192x16_S16x64_S8192x64_1_0_0_1_n_n (some .fp32) l r (constant (F := Ideal) S8192x64 .f32 0x00000000#32) (ix2 p c)
      = ∑ a : Fin 16, l (ix2 p a) * r (ix2 a c) := by
  simp only [matmul]
  rw [Ideal.matmul_constant_zero_apply, ← Equiv.sum_comp (contrEquiv1 dot_S8192x16_S16x64_S8192x64_1_0_0_1_n_n 16 rfl rfl).symm]
  refine Finset.sum_congr rfl fun k _ => ?_
  have hk := contrEquiv1_symm_val dot_S8192x16_S16x64_S8192x64_1_0_0_1_n_n 16 rfl rfl k
  have el : dot_S8192x16_S16x64_S8192x64_1_0_0_1_n_n.lhsIdx (ix2 p c) ((contrEquiv1 dot_S8192x16_S16x64_S8192x64_1_0_0_1_n_n 16 rfl rfl).symm k) = ix2 p k :=
    funext fun a => Fin.ext (by
      match a with
      | ⟨0, _⟩ => exact lhs_axis0 _ _
      | ⟨1, _⟩ => exact (lhs_axis1 _ _).trans hk)
  have er : dot_S8192x16_S16x64_S8192x64_1_0_0_1_n_n.rhsIdx (ix2 p c) ((contrEquiv1 dot_S8192x16_S16x64_S8192x64_1_0_0_1_n_n 16 rfl rfl).symm k) = ix2 k c :=
    funext fun a => Fin.ext (by
      match a with
      | ⟨0, _⟩ => exact (rhs_axis0 _ _).trans hk
      | ⟨1, _⟩ => exact rhs_axis1 _ _)
  rw [el, er]

/-- A sum over the 64 lanes of row `p`. -/
theorem lanesum_at (src : FVec Ideal S8192x64 .f32) (hacc : (0x00000000#32 : BitVec 32) = 0x00000000#32) (p : Fin 8192) :
    multiReduction .add [1] S8192 src 0x00000000#32 reduces_S8192x64_S8192 (.inl rfl) hacc (ix1 p)
      = ∑ c : Fin 64, src (ix2 p c) := by
  refine (Ideal.multiReduction_add_single src 0x00000000#32 reduces_S8192x64_S8192 (.inl rfl) hacc (ix1 p)).trans ?_
  refine Finset.sum_congr rfl fun c _ => congrArg src ?_
  funext d
  apply Fin.ext
  match d with
  | ⟨0, _⟩ => rfl
  | ⟨1, _⟩ => rfl

/-- A vector of 8192 entries kept as a column reads, at `(p, 0)`, the vector at `p`. -/
theorem column_at (v : FVec Ideal S8192 .f32) (p : Fin 8192) (u : Fin 1) :
    shapeCast S8192x1 v shapeCasts_S8192_S8192x1 (ix2 p u) = v (ix1 p) :=
  shapeCast_apply v shapeCasts_S8192_S8192x1 _ _ (by
    have hu : u.val = 0 := by omega
    rw [Shape.rowMajor_val_two, Shape.rowMajor_val_one]
    show p.val = p.val * 1 + u.val
    omega)

/-- The exponential of a vector, at an index. -/
theorem exp_at {s : Shape} (v : FVec Ideal s .f32) (i : s.Idx) : exp v i = Ideal.exp (v i) := rfl

/-! ## The body's result at a row -/

variable (xb : FVec Ideal S8192x16 .f32) (sT mT : FVec Ideal S16x64 .f32) (m2 : FVec Ideal S1x64 .f32)
  (rT : FVec Ideal S16x64 .f32) (b : FVec Ideal S1x64 .f32)

/-- The log firing strength of rule `c` on row `p` of the block, from the staged operands. -/
def blockLogw (p : Fin 8192) (c : Fin 64) : EReal :=
  ((0 - ∑ a : Fin 16, (xb (ix2 p a) * xb (ix2 p a)) * sT (ix2 a c)) + TWO * ∑ a : Fin 16, xb (ix2 p a) * mT (ix2 a c))
    - m2 (ix2 (0 : Fin 1) c)

/-- The stored value at row `p` of the block. -/
def blockOut (p : Fin 8192) : EReal :=
  Ideal.div (∑ c : Fin 64, ((∑ a : Fin 16, xb (ix2 p a) * rT (ix2 a c)) + b (ix2 (0 : Fin 1) c))
      * Ideal.exp (blockLogw xb sT mT m2 p c))
    ((∑ c : Fin 64, Ideal.exp (blockLogw xb sT mT m2 p c)) + EPS)

theorem pay_at (p : Fin 8192) (u : Fin 1) :
    k0_pay1 (F := Ideal) xb sT mT m2 rT b (ix2 p u) = blockOut xb sT mT m2 rT b p := by
  unfold k0_pay1
  dsimp only
  rw [divf_apply, addf_apply, column_at, column_at, lanesum_at, lanesum_at]
  unfold blockOut blockLogw
  simp only [shapeCast_self, mulf_apply, addf_apply, subf_apply, exp_at, broadcast_apply, matmul_at,
    broadcastTo_1b_ab_apply, Ideal.ofBits_def, Ideal.ofBits_zero_f32]

variable {xb sT mT m2 rT b}

/-- When the staged operands are what the host prepared from `μ`, `σ`, `ρ` — the scale transposed, the scaled centre
    transposed, the summed scaled squared centres, the coefficients transposed, the bias — and row `p` of the block is
    row `n` of the data, the stored value is the specification's output at row `n`, in the kernel's spelling. -/
theorem blockOut_eq_out (x : SX.Idx → EReal) (mu sg : SM.Idx → EReal) (rho : SR.Idx → EReal) (p : Fin 8192)
    (n : Fin 131072)
    (h0 : ∀ a : Fin 16, xb (ix2 p a) = x (ix2 n a))
    (h1 : ∀ (a : Fin 16) (r : Fin 64), sT (ix2 a r) = scale sg r a)
    (h2 : ∀ (a : Fin 16) (r : Fin 64), mT (ix2 a r) = mu (ix2 r a) * scale sg r a)
    (h3 : ∀ r : Fin 64, m2 (ix2 (0 : Fin 1) r) = ∑ a : Fin 16, (mu (ix2 r a) * mu (ix2 r a)) * scale sg r a)
    (h4 : ∀ (a : Fin 16) (r : Fin 64), rT (ix2 a r) = rho (ix2 r a.castSucc))
    (h5 : ∀ r : Fin 64, b (ix2 (0 : Fin 1) r) = rho (ix2 r (Fin.last 16))) :
    blockOut xb sT mT m2 rT b p = out x rho (logwKer x mu sg) n := by
  unfold blockOut blockLogw out cons logwKer
  simp only [h0, h1, h2, h3, h4, h5]

end Cert.KernelIdeal.Body

end
-- ==== Proof.HostPrefix.lean ====
/-
  WHAT THE HOST PREPARES FOR THE KERNEL, read at an index.  From the centres `μ`, the widths `σ` and the consequent
  coefficients `ρ` the host computes, before the kernel runs, five small arrays:
    * the scale `s[r,a] = 1 / ((2 σ[r,a]) σ[r,a])`, transposed to `[a, r]`;
    * the scaled centre `μ[r,a] · s[r,a]`, transposed;
    * the row `Σ_a (μ[r,a] μ[r,a]) · s[r,a]` (a host sum from the zero word, reshaped to one row);
    * the first sixteen columns of `ρ`, transposed;
    * the seventeenth column of `ρ`, reshaped to one row.
  A transpose reads `(a, r)` at `(r, a)`; a slice reads at the offset; the reshapes keep the one running coordinate.
-/
import proofs.«177115_j32693291057854_1_alg».proof.Proof.Gen.KernelIdeal
import proofs.«177115_j32693291057854_1_alg».proof.Proof.FuzzySpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Prefix

open Cert.KernelIdeal Cert.KernelIdeal.Gen Idealize.ShloMosaic Idealize.ShloMosaic.ValueIdx Cert.Fuzzy

variable (mu sg : FVec Ideal S64x16 .f32) (rho : FVec Ideal S64x17 .f32)

/-- The scale, rule by feature. -/
def scaleArr : FVec Ideal S64x16 .f32 :=
  Host.divf (broadcastInDim S64x16 ![] bcast_S_S64x16 (constant (F := Ideal) S_ .f32 0x3F800000#32))
    (mulf (mulf (broadcastInDim S64x16 ![] bcast_S_S64x16 (constant (F := Ideal) S_ .f32 0x40000000#32)) sg) sg)

theorem scaleArr_at (r : Fin 64) (a : Fin 16) : scaleArr sg (ix2 r a) = scale sg r a := rfl

/-- The scale transposed: the kernel's first small operand. -/
def scaleT : FVec Ideal S16x64 .f32 := transpose S16x64 [1, 0] (scaleArr sg) transposes_S64x16_S16x64_1_0

theorem scaleT_at (a : Fin 16) (r : Fin 64) : scaleT sg (ix2 a r) = scale sg r a :=
  (transpose_ix2_apply (scaleArr sg) transposes_S64x16_S16x64_1_0 a r).trans (scaleArr_at sg r a)

/-- The scaled centre transposed: the second. -/
def centreT : FVec Ideal S16x64 .f32 :=
  transpose S16x64 [1, 0] (mulf mu (scaleArr sg)) transposes_S64x16_S16x64_1_0

theorem centreT_at (a : Fin 16) (r : Fin 64) : centreT mu sg (ix2 a r) = mu (ix2 r a) * scale sg r a :=
  (transpose_ix2_apply (mulf mu (scaleArr sg)) transposes_S64x16_S16x64_1_0 a r).trans rfl

/-- The summed scaled squared centres, as one row: the third. -/
def centreSq : FVec Ideal S1x64 .f32 :=
  shapeCast S1x64
    (Host.reduceAdd (mulf (mulf mu mu) (scaleArr sg)) (constant (F := Ideal) S_ .f32 0x00000000#32)
      reducesTo_S64x16_S64_d1 h_S_)
    shapeCasts_S64_S1x64

theorem centreSq_at (r : Fin 64) :
    centreSq mu sg (ix2 (0 : Fin 1) r) = ∑ a : Fin 16, (mu (ix2 r a) * mu (ix2 r a)) * scale sg r a := by
  unfold centreSq
  rw [shapeCast_a_1a_apply]
  simp only [Host.reduceAdd, Ideal.hostReduceAdd_def]
  rw [Ideal.hostReduceAdd_single reducesTo_S64x16_S64_d1 (by decide)]
  show Ideal.ofBits .f32 0x00000000#32 + _ = _
  rw [Ideal.ofBits_zero_f32, zero_add]
  refine Finset.sum_congr rfl fun a _ => ?_
  have e : (by decide : S64x16.Reduces [1] S64).lift (ix1 r) a = ix2 r a :=
    funext fun d => Fin.ext (by match d with | ⟨0, _⟩ => rfl | ⟨1, _⟩ => rfl)
  rw [e]
  rfl

/-- The first sixteen columns of the coefficients, transposed: the fourth. -/
def coefT : FVec Ideal S16x64 .f32 :=
  transpose S16x64 [1, 0] (extractStridedSlice S64x16 ![0, 0] rho slices_S64x17_S64x16_0_0) transposes_S64x16_S16x64_1_0

theorem coefT_at (a : Fin 16) (r : Fin 64) : coefT rho (ix2 a r) = rho (ix2 r a.castSucc) :=
  (transpose_ix2_apply _ transposes_S64x16_S16x64_1_0 a r).trans
    (extractStridedSlice_apply ![0, 0] rho slices_S64x17_S64x16_0_0 (ix2 r a) (ix2 r a.castSucc) (fun d =>
      match d with
      | ⟨0, _⟩ => by show r.val = 0 + r.val; omega
      | ⟨1, _⟩ => by show a.val = 0 + a.val; omega))

/-- The bias column as one row: the fifth. -/
def biasRow : FVec Ideal S1x64 .f32 :=
  shapeCast S1x64
    (shapeCast S64 (extractStridedSlice S64x1 ![0, 16] rho slices_S64x17_S64x1_0_16) shapeCasts_S64x1_S64)
    shapeCasts_S64_S1x64

theorem biasRow_at (r : Fin 64) : biasRow rho (ix2 (0 : Fin 1) r) = rho (ix2 r (Fin.last 16)) := by
  unfold biasRow
  rw [shapeCast_a_1a_apply]
  refine (shapeCast_apply _ shapeCasts_S64x1_S64 (ix1 r) (ix2 r (0 : Fin 1)) (by
    rw [Shape.rowMajor_val_two, Shape.rowMajor_val_one]
    show r.val * 1 + 0 = r.val
    omega)).trans ?_
  exact extractStridedSlice_apply ![0, 16] rho slices_S64x17_S64x1_0_16 (ix2 r (0 : Fin 1)) (ix2 r (Fin.last 16)) (fun d =>
    match d with
    | ⟨0, _⟩ => by show r.val = 0 + r.val; omega
    | ⟨1, _⟩ => by show 16 = 16 + 0; rfl)

end Cert.KernelIdeal.Prefix

end
-- ==== Proof.KernelValue.lean ====
/-
  THE KERNEL PROGRAM'S VALUE.  The region's output array is filled block by block: grid point `t` (of 16) writes
  rows `8192 t … 8192 t + 8191`, and what it writes at row `p` of its block is the body's value on row
  `8192 t + p` of the data and on the five small arrays the host prepared, which every point reads whole.  So the
  array after the region holds, at row `n`, the specification's output in the kernel's spelling; the sixteen blocks
  cover all 131072 rows.  The one host line after the region drops the unit column.
-/
import proofs.«177115_j32693291057854_1_alg».proof.Proof.Gen.KernelIdeal.Frame
import proofs.«177115_j32693291057854_1_alg».proof.Proof.BodyValue
import proofs.«177115_j32693291057854_1_alg».proof.Proof.HostPrefix
import Idealize.ShloMosaic.Lib.StableHlo.Run
import Idealize.ShloMosaic.Lib.Pipeline.Value

set_option maxRecDepth 16384

noncomputable section

namespace Cert.KernelIdeal.KerValue

open Cert.KernelIdeal Cert.KernelIdeal.Gen Idealize.ShloMosaic Idealize.ShloMosaic.TcCoe Idealize.SL.Sem
open Idealize.ShloMosaic.ValueIdx Cert.Fuzzy
open Idealize.ShloMosaic.Pipeline (Dat)

variable (m : (ℓ : Loc nD τ sig) → Buf (Elt Ideal) ℓ) (ρ : Dev nD → PrngReg)

/-- The four argument arrays as launched. -/
abbrev argX (c : Dev nD) : FVec Ideal S131072x16 .f32 := m ((c : Thread nD τ).loc main_arg0)
abbrev argMu (c : Dev nD) : FVec Ideal S64x16 .f32 := m ((c : Thread nD τ).loc main_arg1)
abbrev argSg (c : Dev nD) : FVec Ideal S64x16 .f32 := m ((c : Thread nD τ).loc main_arg2)
abbrev argRho (c : Dev nD) : FVec Ideal S64x17 .f32 := m ((c : Thread nD τ).loc main_arg3)

/-! ## The small operands as the region finds them -/

theorem V_scaleT (c : Dev nD) : V m c main_v5 = Prefix.scaleT (argSg m c) := by
  show StableHlo.after hostOps0 (fun b => m (c, b)) (Proc.devRef .tc main_v5) = _
  after_results
  rfl
theorem V_centreT (c : Dev nD) : V m c main_v7 = Prefix.centreT (argMu m c) (argSg m c) := by
  show StableHlo.after hostOps0 (fun b => m (c, b)) (Proc.devRef .tc main_v7) = _
  after_results
  rfl
theorem V_centreSq (c : Dev nD) : V m c main_v11 = Prefix.centreSq (argMu m c) (argSg m c) := by
  show StableHlo.after hostOps0 (fun b => m (c, b)) (Proc.devRef .tc main_v11) = _
  after_results
  rfl
theorem V_coefT (c : Dev nD) : V m c main_v13 = Prefix.coefT (argRho m c) := by
  show StableHlo.after hostOps0 (fun b => m (c, b)) (Proc.devRef .tc main_v13) = _
  after_results
  rfl
theorem V_biasRow (c : Dev nD) : V m c main_v16 = Prefix.biasRow (argRho m c) := by
  show StableHlo.after hostOps0 (fun b => m (c, b)) (Proc.devRef .tc main_v16) = _
  after_results
  rfl

/-! ## What a grid point writes back -/

/-- The array the region's output ends at: at row `n` (its one column) the specification's output, in the kernel's
    spelling, of the argument arrays. -/
def outArr (c : Dev nD) : S131072x1.Idx → EReal := fun i =>
  out (argX m c) (argRho m c) (logwKer (argX m c) (argMu m c) (argSg m c)) (i 0)

theorem hz : (![0, 0] : Fin 2 → Nat) = fun _ => 0 := funext fun a => by fin_cases a <;> rfl

/-- The printed index maps over the sixteen points: the data window moves with the output window along the rows,
    and every small operand stays at block `(0, 0)`. -/
theorem idx_facts : ∀ t : Fin cfg0.N, win0_0.index t (0 : Fin 2) = win0_6.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 :=
  (by decide +kernel : ∀ t : Fin grid0.N, _)

/-- Every block of rows is some point's. -/
theorem idx_onto : ∀ q : Fin 16, ∃ t : Fin cfg0.N, win0_6.index t = ![q.val, 0] :=
  (by decide +kernel : ∀ q : Fin 16, ∃ t : Fin grid0.N, win0_6.index t = ![q.val, 0])

/-- WHAT POINT `t` WRITES BACK is block `t` of `outArr`. -/
theorem flushed_eq (c : Dev nD) (t : Fin cfg0.N) :
    (dats m 0 c).flushed 6 t = ((cfg0.win 6).blk t).view.read (Elt Ideal) (outArr m c) := by
  show (cfg0.win 6).cut (grid0.coords t) ((dats m 0 c).after 6 t) = _
  rw [after0_6]
  unfold out0_6
  rw [View.canon_unit_zero hz]
  simp only [View.ld_unit_zero (S := S8192x16) hz, View.ld_unit_zero (S := S16x64) hz, View.ld_unit_zero (S := S1x64) hz]
  obtain ⟨e00, e01, e10, e11, e20, e21, e30, e31, e40, e41, e50, e51, e61⟩ := idx_facts t
  funext j
  obtain ⟨p, u, rfl⟩ : ∃ (p : Fin 8192) (u : Fin 1), j = ix2 p u := ⟨j 0, j 1, eq_ix2 j⟩
  show k0_pay1 (F := Ideal) (iblk m c 0 t) (iblk m c 1 t) (iblk m c 2 t) (iblk m c 3 t) (iblk m c 4 t) (iblk m c 5 t) (ix2 p u)
    = out (argX m c) (argRho m c) (logwKer (argX m c) (argMu m c) (argSg m c)) ((((cfg0.win 6).blk t).view.emb (ix2 p u)) 0)
  refine (Body.pay_at (iblk m c 0 t) (iblk m c 1 t) (iblk m c 2 t) (iblk m c 3 t) (iblk m c 4 t) (iblk m c 5 t) p u).trans ?_
  refine Body.blockOut_eq_out (argX m c) (argMu m c) (argSg m c) (argRho m c) p
    ((((cfg0.win 6).blk t).view.emb (ix2 p u)) 0) ?_ ?_ ?_ ?_ ?_ ?_
  · -- row `p` of the data block is row `8192 t + p` of the data
    intro a
    show V m c main_arg0 (((cfg0.win 0).blk t).view.emb (ix2 p a)) = _
    rw [V_main_arg0]
    refine congrArg (argX m c) (funext fun d => Fin.ext ?_)
    match d with
    | ⟨0, _⟩ =>
      show win0_0.index t (0 : Fin 2) * 8192 + 1 * p.val = win0_6.index t (0 : Fin 2) * 8192 + 1 * p.val
      omega
    | ⟨1, _⟩ => show win0_0.index t (1 : Fin 2) * 16 + 1 * a.val = a.val; omega
  · intro a r
    show V m c main_v5 (((cfg0.win 1).blk t).view.emb (ix2 a r)) = _
    rw [V_scaleT]
    refine Eq.trans (congrArg (Prefix.scaleT (argSg m c)) (funext fun d => Fin.ext ?_)) (Prefix.scaleT_at (argSg m c) a r)
    match d with
    | ⟨0, _⟩ => show win0_1.index t (0 : Fin 2) * 16 + 1 * a.val = a.val; omega
    | ⟨1, _⟩ => show win0_1.index t (1 : Fin 2) * 64 + 1 * r.val = r.val; omega
  · intro a r
    show V m c main_v7 (((cfg0.win 2).blk t).view.emb (ix2 a r)) = _
    rw [V_centreT]
    refine Eq.trans (congrArg (Prefix.centreT (argMu m c) (argSg m c)) (funext fun d => Fin.ext ?_))
      (Prefix.centreT_at (argMu m c) (argSg m c) a r)
    match d with
    | ⟨0, _⟩ => show win0_2.index t (0 : Fin 2) * 16 + 1 * a.val = a.val; omega
    | ⟨1, _⟩ => show win0_2.index t (1 : Fin 2) * 64 + 1 * r.val = r.val; omega
  · intro r
    show V m c main_v11 (((cfg0.win 3).blk t).view.emb (ix2 (0 : Fin 1) r)) = _
    rw [V_centreSq]
    refine Eq.trans (congrArg (Prefix.centreSq (argMu m c) (argSg m c)) (funext fun d => Fin.ext ?_))
      (Prefix.centreSq_at (argMu m c) (argSg m c) r)
    match d with
    | ⟨0, _⟩ => show win0_3.index t (0 : Fin 2) * 1 + 1 * 0 = 0; omega
    | ⟨1, _⟩ => show win0_3.index t (1 : Fin 2) * 64 + 1 * r.val = r.val; omega
  · intro a r
    show V m c main_v13 (((cfg0.win 4).blk t).view.emb (ix2 a r)) = _
    rw [V_coefT]
    refine Eq.trans (congrArg (Prefix.coefT (argRho m c)) (funext fun d => Fin.ext ?_)) (Prefix.coefT_at (argRho m c) a r)
    match d with
    | ⟨0, _⟩ => show win0_4.index t (0 : Fin 2) * 16 + 1 * a.val = a.val; omega
    | ⟨1, _⟩ => show win0_4.index t (1 : Fin 2) * 64 + 1 * r.val = r.val; omega
  · intro r
    show V m c main_v16 (((cfg0.win 5).blk t).view.emb (ix2 (0 : Fin 1) r)) = _
    rw [V_biasRow]
    refine Eq.trans (congrArg (Prefix.biasRow (argRho m c)) (funext fun d => Fin.ext ?_)) (Prefix.biasRow_at (argRho m c) r)
    match d with
    | ⟨0, _⟩ => show win0_5.index t (0 : Fin 2) * 1 + 1 * 0 = 0; omega
    | ⟨1, _⟩ => show win0_5.index t (1 : Fin 2) * 64 + 1 * r.val = r.val; omega

/-! ## The array after the region -/

/-- A row index is in point `t`'s block iff each coordinate is in the block's range on its axis. -/
theorem mem_blk (t : Fin cfg0.N) (i : S131072x1.Idx) :
    i ∈ ((cfg0.win 6).blk t).view.set ↔ ∀ a : Fin 2, win0_6.index t a * S8192x1.size a ≤ (i a).val
      ∧ (i a).val < win0_6.index t a * S8192x1.size a + S8192x1.size a := by
  show i ∈ ((View.whole main_v17).slice (win0_6.rect t)).set ↔ _
  rw [View.set_slice_whole, Rect.mem_set_unit]
  exact Iff.rfl

/-- The sixteen blocks cover every row: row `n` is in the block of point `n / 8192`. -/
theorem cover (i : S131072x1.Idx) :
    ∃ t : Fin cfg0.N, (cfg0.win 6).flush t = true ∧ i ∈ ((cfg0.win 6).blk t).view.set := by
  have hi0 : (i 0).val < 131072 := (i 0).isLt
  have hi1 : (i 1).val < 1 := (i 1).isLt
  obtain ⟨t, ht⟩ := idx_onto ⟨(i 0).val / 8192, by omega⟩
  have q0 : win0_6.index t (0 : Fin 2) = (i 0).val / 8192 := congrFun ht 0
  have q1 : win0_6.index t (1 : Fin 2) = 0 := congrFun ht 1
  refine ⟨t, flush0_6 t, ?_⟩
  rw [mem_blk]
  intro a
  match a with
  | ⟨0, _⟩ =>
    show win0_6.index t (0 : Fin 2) * 8192 ≤ (i 0).val ∧ (i 0).val < win0_6.index t (0 : Fin 2) * 8192 + 8192
    omega
  | ⟨1, _⟩ =>
    show win0_6.index t (1 : Fin 2) * 1 ≤ (i 1).val ∧ (i 1).val < win0_6.index t (1 : Fin 2) * 1 + 1
    omega

/-- THE ARRAY after the region is `outArr`. -/
theorem final (c : Dev nD) : (dats m 0 c).arrAt 6 cfg0.N = outArr m c :=
  (dats m 0 c).arrAt_eq_of_cover 6 (outArr m c) (fun t _ => flushed_eq m c t) cover

/-! ## The host line after the region, and the run -/

/-- The program's result: at row `n` the specification's output in the kernel's spelling. -/
def result (c : Dev nD) : S131072.Idx → EReal := fun i =>
  out (argX m c) (argRho m c) (logwKer (argX m c) (argMu m c) (argSg m c)) (i 0)

theorem tail_eq (c : Dev nD) :
    Pipeline.afterTail₀ cfgs (dats m) 0 (V0 m) [hostOps1] c main_v18 = result m c := by
  unfold Pipeline.afterTail₀
  show StableHlo.after hostOps1 _ (Proc.devRef .tc main_v18) = _
  after_results
  have hW : Pipeline.withArrays (cfgs 0).spec c (V0 m c) (fun w => (dats m 0 c).arrAt w (cfgs 0).N)
      (Proc.devRef .tc main_v17) = outArr m c :=
    (Pipeline.withArrays_arr spec0 launch0.win.arr_inj c _ _ 6).trans (final m c)
  funext i
  obtain ⟨n, rfl⟩ : ∃ n : Fin 131072, i = ix1 n := ⟨i 0, eq_ix1 i⟩
  show shapeCast S131072 (Pipeline.withArrays (cfgs 0).spec c (V0 m c) (fun w => (dats m 0 c).arrAt w (cfgs 0).N)
      (Proc.devRef .tc main_v17)) shapeCasts_S131072x1_S131072 (ix1 n) = _
  rw [hW]
  exact shapeCast_apply (outArr m c) shapeCasts_S131072x1_S131072 (ix1 n) (ix2 n (0 : Fin 1)) (by
    rw [Shape.rowMajor_val_two, Shape.rowMajor_val_one]
    show n.val * 1 + 0 = n.val
    omega)

/-- THE RUN: every weakly fair execution of the kernel program terminates with its result at `result` and its four
    argument arrays as launched. -/
theorem run : θ_run defs (onTc (τ := τ) (main (F := Ideal))) ⟨m, fun _ => 0, ρ⟩ fun r => ∀ c : Dev nD,
      r.2.mem ((c.tc : Thread nD τ).loc main_v18) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v18 (Pipeline.mem_restRefs_of main_v18 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KerValue

end
-- ==== Proof.lean ====
/-
  A fuzzy-rule network: for each of 131072 data rows `x[n,:]` (16 features) and each of 64 rules, a Gaussian
  firing strength `w[n,r] = exp (−Σ_a (x[n,a] − μ[r,a])² / (2 σ[r,a]²))` and a linear consequent
  `z[n,r] = Σ_a x[n,a] ρ[r,a] + ρ[r,16]`; the output is the normalised sum `Σ_r z w / (Σ_r w + ε)`.

  The reference computes exactly that on the host.  The kernel expands the square: the host first prepares
  `s = 1 / (2 σ σ)`, `μ s` and `Σ_a μ² s`, and on each block of 8192 rows the kernel forms the exponent as
  `(0 − x² · sᵀ) + 2 (x · (μ s)ᵀ) − Σ_a μ² s` with two matrix products, the consequent with a third, and the two sums
  over the rules as lane sums.  Over the extended reals the two exponents are the same number exactly when every
  entry is a real number and no width `σ` is zero: at `σ = 0` the reference divides by zero (its quotient is an
  infinity, or the junk value at `0 / 0`) while the kernel multiplies by the infinite scale, and the results differ;
  so the precondition says every input is finite and every width is non-zero.  Under it the exponents agree
  (GaussAlgebra, FuzzySpec); the consequents are one sum read through a transpose; numerator, denominator, the
  literal `ε` and the final quotient are then the same on both sides.

  The pieces: InputDomain reads the precondition entry by entry; FuzzySpec states the output once, in both
  spellings of the exponent, and proves them equal; RefValue reads the reference's run; HostPrefix, BodyValue and
  KernelValue read the kernel program's — the host's five small arrays, the body's stored value at a row, the
  blocks covering the output, the reshape after the region.  The frames are the generated ones; no operation of the
  kernel was rewritten for the idealization, so `preserves` has nothing to state.
-/
import proofs.«177115_j32693291057854_1_alg».proof.Defs
import proofs.«177115_j32693291057854_1_alg».proof.Proof.Gen.Kernel
import proofs.«177115_j32693291057854_1_alg».proof.Proof.Gen.Kernel.Skeleton
import proofs.«177115_j32693291057854_1_alg».proof.Proof.Gen.Kernel.Launch
import proofs.«177115_j32693291057854_1_alg».proof.Proof.Gen.Kernel.Points
import proofs.«177115_j32693291057854_1_alg».proof.Proof.Gen.Kernel.Frame
import proofs.«177115_j32693291057854_1_alg».proof.Proof.Gen.KernelIdeal
import proofs.«177115_j32693291057854_1_alg».proof.Proof.Gen.KernelIdeal.Skeleton
import proofs.«177115_j32693291057854_1_alg».proof.Proof.Gen.KernelIdeal.Launch
import proofs.«177115_j32693291057854_1_alg».proof.Proof.Gen.KernelIdeal.Points
import proofs.«177115_j32693291057854_1_alg».proof.Proof.Gen.KernelIdeal.Frame
import proofs.«177115_j32693291057854_1_alg».proof.Proof.Gen.ReferenceIdeal
import proofs.«177115_j32693291057854_1_alg».proof.Proof.Gen.Pre_finite_inputs
import proofs.«177115_j32693291057854_1_alg».proof.Proof.Gen.ReferenceIdeal.Run
import proofs.«177115_j32693291057854_1_alg».proof.Proof.Gen.ReferenceIdeal.Read
import proofs.«177115_j32693291057854_1_alg».proof.Proof.InputDomain
import proofs.«177115_j32693291057854_1_alg».proof.Proof.RefValue
import proofs.«177115_j32693291057854_1_alg».proof.Proof.KernelValue
import Idealize.ShloMosaic.Adequacy
import Idealize.ShloMosaic.Init

noncomputable section

namespace Cert.Proof

open Idealize.ShloMosaic Idealize.SL.Sem Idealize.ShloMosaic.ValueIdx

/-- The word-level kernel program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On real inputs with non-zero widths both programs end with, at every row, the normalised sum of the consequents
    weighted by the firing strengths: the kernel's expanded exponent is the reference's. -/
theorem algebraic : Cert.algebraic_KernelIdeal_ReferenceIdeal := by
  intro m ρ m' ρ' hpre hagree
  refine ⟨fun c => Cert.KernelIdeal.KerValue.result m c, Cert.KernelIdeal.KerValue.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hm, hs, -, hs0⟩ := Cert.Fuzzy.Domain.of_pre _ _ _ _ (hpre c)
  rw [Cert.ReferenceIdeal.Read.val_main_v27_eq, (hagree c).1, (hagree c).2.1, (hagree c).2.2.1, (hagree c).2.2.2]
  funext i
  obtain ⟨n, rfl⟩ : ∃ n : Fin 131072, i = ix1 n := ⟨i 0, eq_ix1 i⟩
  rw [Cert.ReferenceIdeal.RefValue.result_at]
  exact (Cert.Fuzzy.out_ker_eq_ref _ hx hm hs hs0 n).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
